-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : FVec F S100000x256 .f32) (main_arg2 : FVec F S512x256 .f32) (main_arg3 : FVec F S256 .f32) (main_arg4 : FVec F S256x1 .f32) (main_arg5 : FVec F S1 .f32) (main_arg6 : IVec S2x262144 32) (main_arg7 : IVec S2x262144 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S524288x256 : Shape := ⟨2, ![524288, 256]⟩
abbrev S256x256 : Shape := ⟨2, ![256, 256]⟩
abbrev S524288x1 : Shape := ⟨2, ![524288, 1]⟩
abbrev S4096x256 : Shape := ⟨2, ![4096, 256]⟩
abbrev S4096x1 : Shape := ⟨2, ![4096, 1]⟩
abbrev S1x256 : Shape := ⟨2, ![1, 256]⟩
abbrev S1x1 : Shape := ⟨2, ![1, 1]⟩
abbrev S524288 : Shape := ⟨1, ![524288]⟩

abbrev nBuf : Space → Nat
  | .hbm => 65
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2x262144, .i32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S100000x256, .bf16⟩
  | .hbm, ⟨17, _⟩ => ⟨S100000x256, .bf16⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .bf16⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x256, .bf16⟩
  | .hbm, ⟨36, _⟩ => ⟨S524288x256, .bf16⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x256, .bf16⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x256, .bf16⟩
  | .hbm, ⟨55, _⟩ => ⟨S524288x256, .bf16⟩
  | .hbm, ⟨56, _⟩ => ⟨S256x256, .f32⟩
  | .hbm, ⟨57, _⟩ => ⟨S256x256, .bf16⟩
  | .hbm, ⟨58, _⟩ => ⟨S256x256, .f32⟩
  | .hbm, ⟨59, _⟩ => ⟨S256x256, .bf16⟩
  | .hbm, ⟨60, _⟩ => ⟨S256x1, .bf16⟩
  | .hbm, ⟨61, _⟩ => ⟨S524288x1, .f32⟩
  | .hbm, ⟨62, _⟩ => ⟨S524288, .f32⟩
  | .hbm, ⟨63, _⟩ => ⟨S262144, .f32⟩
  | .hbm, ⟨64, _⟩ => ⟨S262144, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S256x1, .bf16⟩
  | .local _ .vmem, ⟨8, _⟩ => ⟨S1, .f32⟩
  | .local _ .vmem, ⟨9, _⟩ => ⟨S4096x1, .f32⟩
  | .local _ .vmem, ⟨10, _⟩ => ⟨S4096x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bitsLt_bf16_f32 : FTy.bits .bf16 < FTy.bits .f32
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S524288x256_d0 : Shape.Concatenates [S262144x256, S262144x256] S524288x256 0
  slices_S512x256_S256x256_0_0 : S512x256.Slices ![0, 0] S256x256
  slices_S512x256_S256x256_256_0 : S512x256.Slices ![256, 0] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S524288x1_S524288 : S524288x1.ShapeCasts S524288
  slices_S524288_S262144_0 : S524288.Slices ![0] S262144
  slices_S524288_S262144_262144 : S524288.Slices ![262144] S262144
  gather_S100000x256_S262144x1_S262144x256_1_0_n_n_0_1_1256_wf : GatherDims.WF S100000x256 S262144x1 S262144x256 [1] [0] [] [0] [] 1 ![1, 256]
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .bf16 = 32 ∨ (Rect.block (s := S524288x256) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S524288x256.size a
  hwx0_1 : ∀ i : grid0.Coords, EltTy.bits .bf16 = 32 ∨ (Rect.block (s := S524288x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S524288x1.size a
  hwx0_7 : ∀ i : grid0.Coords, EltTy.bits .f32 = 32 ∨ (Rect.block (s := S524288x1) S4096x1.size (cc0_transform_7 i) (hinb0_7 i)).WholeWords (EltTy.packing .f32)

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v24) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S262144x512 : Shape := ⟨2, ![262144, 512]⟩
abbrev S1x256 : Shape := ⟨2, ![1, 256]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2x262144, .i32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | .hbm, ⟨34, _⟩ => ⟨S262144x512, .f32⟩
  | .hbm, ⟨35, _⟩ => ⟨S262144x256, .f32⟩
  | .hbm, ⟨36, _⟩ => ⟨S1x256, .f32⟩
  | .hbm, ⟨37, _⟩ => ⟨S262144x256, .f32⟩
  | .hbm, ⟨38, _⟩ => ⟨S262144x256, .f32⟩
  | .hbm, ⟨39, _⟩ => ⟨S_, .f32⟩
  | .hbm, ⟨40, _⟩ => ⟨S262144x256, .f32⟩
  | .hbm, ⟨41, _⟩ => ⟨S262144x256, .f32⟩
  | .hbm, ⟨42, _⟩ => ⟨S262144x1, .f32⟩
  | .hbm, ⟨43, _⟩ => ⟨S1x1, .f32⟩
  | .hbm, ⟨44, _⟩ => ⟨S262144x1, .f32⟩
  | .hbm, ⟨45, _⟩ => ⟨S262144x1, .f32⟩
  | .hbm, ⟨46, _⟩ => ⟨S262144, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S262144x512, .f32⟩
  | .hbm, ⟨66, _⟩ => ⟨S262144x256, .f32⟩
  | .hbm, ⟨67, _⟩ => ⟨S1x256, .f32⟩
  | .hbm, ⟨68, _⟩ => ⟨S262144x256, .f32⟩
  | .hbm, ⟨69, _⟩ => ⟨S262144x256, .f32⟩
  | .hbm, ⟨70, _⟩ => ⟨S_, .f32⟩
  | .hbm, ⟨71, _⟩ => ⟨S262144x256, .f32⟩
  | .hbm, ⟨72, _⟩ => ⟨S262144x256, .f32⟩
  | .hbm, ⟨73, _⟩ => ⟨S262144x1, .f32⟩
  | .hbm, ⟨74, _⟩ => ⟨S1x1, .f32⟩
  | .hbm, ⟨75, _⟩ => ⟨S262144x1, .f32⟩
  | .hbm, ⟨76, _⟩ => ⟨S262144x1, .f32⟩
  | .hbm, ⟨77, _⟩ => ⟨S262144, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_cst : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  gather_S100000x256_S262144x1_S262144x256_1_0_n_n_0_1_1256_wf : GatherDims.WF S100000x256 S262144x1 S262144x256 [1] [0] [] [0] [] 1 ![1, 256]
  dot_S262144x512_S512x256_S262144x256_1_0_0_1_n_n_wf : DotDims.WF S262144x512 S512x256 S262144x256 [1] [0] [0] [1] [] []
  dot_S262144x256_S256x1_S262144x1_1_0_0_1_n_n_wf : DotDims.WF S262144x256 S256x1 S262144x1 [1] [0] [0] [1] [] []

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.Score.lean ====
/-
  The edge scorer as one function of an edge's two feature rows, over the extended reals.

  An edge with source row `a` and destination row `b` (256 features each) is scored by a two-layer perceptron:
  hidden unit `k` is `max (⟨a ‖ b, W1[:, k]⟩ + b1[k]) 0` with `a ‖ b` the 512-long concatenation, and the score is
  `⟨hidden, W2[:, 0]⟩ + b2[0]`. The inner product over the concatenation is written here in the two ways the two
  programs compute it: as ONE sum over the 512 positions of the concatenated row (`catDot`), and as the sum over
  the source half plus the sum over the destination half against the two halves of `W1` (`splitDot`). The two are
  equal because a sum over `Fin 512` is the sum over its first 256 positions plus the sum over its last 256
  (`sum_halves`): only commutativity and associativity of `+` on the extended reals, so no finiteness is used.
-/
import Idealize.ShloMosaic.PureOps.Ideal
import Idealize.ShloMosaic.Lib.ValueIdx

noncomputable section

open scoped BigOperators

namespace Cert.EdgeScore

open Idealize.ShloMosaic Idealize.ShloMosaic.ValueIdx

/-- Position `j` of the first half of a 512-long row. -/
abbrev lo (j : Fin 256) : Fin 512 := ⟨j.val, by omega⟩
/-- Position `j` of the second half of a 512-long row. -/
abbrev hi (j : Fin 256) : Fin 512 := ⟨256 + j.val, by omega⟩

/-- A sum over the 512 positions is the sum over the first 256 plus the sum over the last 256. -/
theorem sum_halves (f : Fin 512 → EReal) : ∑ q : Fin 512, f q = (∑ j : Fin 256, f (lo j)) + ∑ j : Fin 256, f (hi j) := by
  have h := Fin.sum_univ_add (M := EReal) (a := 256) (b := 256) (fun q : Fin (256 + 256) => f q)
  exact h

/-- The concatenated row `a ‖ b`. -/
def cat (a b : Fin 256 → EReal) (q : Fin 512) : EReal :=
  if h : q.val < 256 then a ⟨q.val, h⟩ else b ⟨q.val - 256, by omega⟩

theorem cat_lo (a b : Fin 256 → EReal) (j : Fin 256) : cat a b (lo j) = a j := by
  unfold cat; rw [dif_pos (show (lo j).val < 256 from j.isLt)]

theorem cat_hi (a b : Fin 256 → EReal) (j : Fin 256) : cat a b (hi j) = b j := by
  unfold cat
  rw [dif_neg (show ¬ (hi j).val < 256 from by show ¬ (256 + j.val < 256); omega)]
  exact congrArg b (Fin.ext (by show 256 + j.val - 256 = j.val; omega))

/-- The inner product of the concatenated row with column `k` of `W1`, as one sum over the 512 positions. -/
def catDot (a b : Fin 256 → EReal) (W1 : (⟨2, ![512, 256]⟩ : Shape).Idx → EReal) (k : Fin 256) : EReal :=
  ∑ q : Fin 512, cat a b q * W1 (ix2 q k)

/-- The same inner product half by half: the source row against the upper half of `W1`, the destination row against
    the lower half, added. -/
def splitDot (a b : Fin 256 → EReal) (W1 : (⟨2, ![512, 256]⟩ : Shape).Idx → EReal) (k : Fin 256) : EReal :=
  (∑ j : Fin 256, a j * W1 (ix2 (lo j) k)) + ∑ j : Fin 256, b j * W1 (ix2 (hi j) k)

theorem catDot_eq_splitDot (a b : Fin 256 → EReal) (W1 : (⟨2, ![512, 256]⟩ : Shape).Idx → EReal) (k : Fin 256) :
    catDot a b W1 k = splitDot a b W1 k := by
  unfold catDot splitDot
  rw [sum_halves]
  simp only [cat_lo, cat_hi]

/-- The score from a pre-activation `pre : Fin 256 → EReal` (the first layer's inner products, before the bias):
    the rectified biased hidden units against the one column of `W2`, plus the output bias. -/
def scoreOf (pre : Fin 256 → EReal) (b1 : (⟨1, ![256]⟩ : Shape).Idx → EReal) (W2 : (⟨2, ![256, 1]⟩ : Shape).Idx → EReal)
    (b2 : (⟨1, ![1]⟩ : Shape).Idx → EReal) : EReal :=
  (∑ k : Fin 256, max (pre k + b1 (ix1 k)) 0 * W2 (ix2 k (0 : Fin 1))) + b2 (ix1 (0 : Fin 1))

/-- The edge's score, the first layer read over the concatenated row. -/
def score (a b : Fin 256 → EReal) (W1 : (⟨2, ![512, 256]⟩ : Shape).Idx → EReal) (b1 : (⟨1, ![256]⟩ : Shape).Idx → EReal)
    (W2 : (⟨2, ![256, 1]⟩ : Shape).Idx → EReal) (b2 : (⟨1, ![1]⟩ : Shape).Idx → EReal) : EReal :=
  scoreOf (catDot a b W1) b1 W2 b2

/-- The edge's score, the first layer read half by half. -/
def scoreSplit (a b : Fin 256 → EReal) (W1 : (⟨2, ![512, 256]⟩ : Shape).Idx → EReal) (b1 : (⟨1, ![256]⟩ : Shape).Idx → EReal)
    (W2 : (⟨2, ![256, 1]⟩ : Shape).Idx → EReal) (b2 : (⟨1, ![1]⟩ : Shape).Idx → EReal) : EReal :=
  scoreOf (splitDot a b W1) b1 W2 b2

theorem scoreSplit_eq_score (a b : Fin 256 → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal) :
    scoreSplit a b W1 b1 W2 b2 = score a b W1 b1 W2 b2 := by
  unfold scoreSplit score
  exact congrArg (fun p => scoreOf p b1 W2 b2) (funext fun k => (catDot_eq_splitDot a b W1 k).symm)

end Cert.EdgeScore

end
-- ==== Proof.KPay.lean ====
/-
  The kernel body's stored value, read at one row of its block.

  The body loads a block of 4096 source rows `x0` and of 4096 destination rows `x1` (256 features each), the two
  256 × 256 halves `x2`, `x3` of the first layer's weights, its bias `x4`, the second layer's column `x5` and its bias
  `x6`, and stores one column of 4096 scores. Row `p` of that column is
    (∑ k, max ((∑ j, x0[p, j] · x2[j, k]) + (∑ j, x1[p, j] · x3[j, k]) + x4[k]) 0 · x5[k, 0]) + x6[0]:
  each `tpu.matmul` into a zero accumulator is the plain sum over its one contracted axis, a change of float format is
  the identity on the extended reals, and the two broadcasts read the bias at the column (or at its one entry).
-/
import proofs.«143500_j51041391345811_1_alg».proof.Proof.Gen.KernelIdeal.Skeleton
import proofs.«143500_j51041391345811_1_alg».proof.Proof.Score
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeScore

/-! ## The first layer's product: rows of 256 features against a 256 × 256 matrix -/

theorem lhs_first_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_first_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_first_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_first_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry `(p, k)` of a block of rows times a 256 × 256 matrix, into the zero accumulator: the row's inner product with
    column `k`. -/
theorem first_apply (A : FVec Ideal S4096x256 .bf16) (B : FVec Ideal S256x256 .bf16) (p : Fin 4096) (k : Fin 256) :
    matmul dot_S4096x256_S256x256_S4096x256_1_0_0_1_n_n none A B (constant S4096x256 .f32 0x00000000#32) (ix2 p k)
      = ∑ j : Fin 256, A (ix2 p j) * B (ix2 j k) := by
  simp only [matmul]
  rw [Ideal.matmul_constant_zero_apply, ← Equiv.sum_comp (contrEquiv1 dot_S4096x256_S256x256_S4096x256_1_0_0_1_n_n 256 rfl rfl).symm]
  refine Finset.sum_congr rfl fun j _ => ?_
  have hk := contrEquiv1_symm_val dot_S4096x256_S256x256_S4096x256_1_0_0_1_n_n 256 rfl rfl j
  have el : dot_S4096x256_S256x256_S4096x256_1_0_0_1_n_n.lhsIdx (ix2 p k) ((contrEquiv1 dot_S4096x256_S256x256_S4096x256_1_0_0_1_n_n 256 rfl rfl).symm j) = ix2 p j := funext fun a => Fin.ext (by
    match a with
    | ⟨0, _⟩ => exact lhs_first_0 _ _
    | ⟨1, _⟩ => exact (lhs_first_1 _ _).trans hk)
  have er : dot_S4096x256_S256x256_S4096x256_1_0_0_1_n_n.rhsIdx (ix2 p k) ((contrEquiv1 dot_S4096x256_S256x256_S4096x256_1_0_0_1_n_n 256 rfl rfl).symm j) = ix2 j k := funext fun a => Fin.ext (by
    match a with
    | ⟨0, _⟩ => exact (rhs_first_0 _ _).trans hk
    | ⟨1, _⟩ => exact rhs_first_1 _ _)
  rw [el, er]

/-! ## The second layer's product: rows of 256 hidden units against one column -/

theorem lhs_second_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem lhs_second_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_second_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_second_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- Entry `(p, 0)` of a block of hidden rows times the one column, into the zero accumulator. -/
theorem second_apply (A : FVec Ideal S4096x256 .bf16) (B : FVec Ideal S256x1 .bf16) (p : Fin 4096) :
    matmul dot_S4096x256_S256x1_S4096x1_1_0_0_1_n_n none A B (constant S4096x1 .f32 0x00000000#32) (ix2 p (0 : Fin 1))
      = ∑ k : Fin 256, A (ix2 p k) * B (ix2 k (0 : Fin 1)) := by
  simp only [matmul]
  rw [Ideal.matmul_constant_zero_apply, ← Equiv.sum_comp (contrEquiv1 dot_S4096x256_S256x1_S4096x1_1_0_0_1_n_n 256 rfl rfl).symm]
  refine Finset.sum_congr rfl fun k _ => ?_
  have hk := contrEquiv1_symm_val dot_S4096x256_S256x1_S4096x1_1_0_0_1_n_n 256 rfl rfl k
  have el : dot_S4096x256_S256x1_S4096x1_1_0_0_1_n_n.lhsIdx (ix2 p (0 : Fin 1)) ((contrEquiv1 dot_S4096x256_S256x1_S4096x1_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S4096x256_S256x1_S4096x1_1_0_0_1_n_n.rhsIdx (ix2 p (0 : Fin 1)) ((contrEquiv1 dot_S4096x256_S256x1_S4096x1_1_0_0_1_n_n 256 rfl rfl).symm k) = ix2 k (0 : Fin 1) := funext fun a => Fin.ext (by
    match a with
    | ⟨0, _⟩ => exact (rhs_second_0 _ _).trans hk
    | ⟨1, _⟩ => exact rhs_second_1 _ _)
  rw [el, er]

/-! ## The two biases, broadcast over the block's rows -/

/-- The first layer's bias, laid out as one row and broadcast down the 4096 rows, read at `(p, k)`: its entry `k`. -/
theorem bias1_apply (x4 : Vec Ideal S256 .f32) (p : Fin 4096) (k : Fin 256) :
    broadcastTo S4096x256 (shapeCast S1x256 x4 shapeCasts_S256_S1x256) broadcasts_S1x256_S4096x256 (ix2 p k) = x4 (ix1 k) := by
  refine (broadcastTo_apply _ broadcasts_S1x256_S4096x256 (ix2 p k) (ix2 (0 : Fin 1) k) (fun a => ?_)).trans ?_
  · match a with
    | ⟨0, _⟩ => show (0 : Nat) = if (1 : Nat) = 1 then 0 else _; rw [if_pos rfl]
    | ⟨1, _⟩ => show k.val = if (256 : Nat) = 1 then 0 else k.val; rw [if_neg (by decide)]
  · exact shapeCast_apply x4 shapeCasts_S256_S1x256 (ix2 (0 : Fin 1) k) (ix1 k)
      (by rewrite [Shape.rowMajor_val_one, Shape.rowMajor_val_two]; show k.val = 0 * 256 + k.val; omega)

/-- The second layer's bias, one number, broadcast down the 4096 rows: that number. -/
theorem bias2_apply (x6 : Vec Ideal S1 .f32) (p : Fin 4096) :
    broadcastTo S4096x1 (shapeCast S1x1 x6 shapeCasts_S1_S1x1) broadcasts_S1x1_S4096x1 (ix2 p (0 : Fin 1)) = x6 (ix1 (0 : Fin 1)) := by
  refine (broadcastTo_apply _ broadcasts_S1x1_S4096x1 (ix2 p (0 : Fin 1)) (ix2 (0 : Fin 1) (0 : Fin 1)) (fun a => ?_)).trans ?_
  · match a with
    | ⟨0, _⟩ => show (0 : Nat) = if (1 : Nat) = 1 then 0 else _; rw [if_pos rfl]
    | ⟨1, _⟩ => show (0 : Nat) = if (1 : Nat) = 1 then 0 else _; rw [if_pos rfl]
  · exact shapeCast_apply x6 shapeCasts_S1_S1x1 (ix2 (0 : Fin 1) (0 : Fin 1)) (ix1 (0 : Fin 1))
      (by rewrite [Shape.rowMajor_val_one, Shape.rowMajor_val_two]; rfl)

/-! ## The stored column at a row -/

/-- Row `p` of the column the body stores, from the loaded blocks: the perceptron's score of the row's source and
    destination features, the first layer's product taken half by half. -/
theorem pay_apply (x0 x1 : Vec Ideal S4096x256 .bf16) (x2 x3 : Vec Ideal S256x256 .bf16) (x4 : Vec Ideal S256 .f32)
    (x5 : Vec Ideal S256x1 .bf16) (x6 : Vec Ideal S1 .f32) (p : Fin 4096) :
    k0_pay1 x0 x1 x2 x3 x4 x5 x6 (ix2 p (0 : Fin 1))
      = scoreOf (fun k => (∑ j : Fin 256, x0 (ix2 p j) * x2 (ix2 j k)) + ∑ j : Fin 256, x1 (ix2 p j) * x3 (ix2 j k)) x4 x5 x6 := by
  unfold k0_pay1
  simp only [shapeCast_self]
  rw [addf_apply, second_apply, bias2_apply]
  unfold scoreOf
  refine congrArg (· + x6 (ix1 (0 : Fin 1))) (Finset.sum_congr rfl fun k _ => ?_)
  rw [truncf_apply, maximumf_apply, addf_apply, addf_apply, first_apply, first_apply, bias1_apply, broadcast_apply]
  show max _ (Ideal.ofBits .f32 0x00000000#32) * _ = _
  rw [Ideal.ofBits_zero_f32]

end Cert.KernelIdeal.Body

end
-- ==== Proof.KBlock.lean ====
/-
  The score array after the region, as one function of the arrays the region finds.

  The region runs the body at 128 points; point `t` stages rows `4096 t … 4096 t + 4095` of the two arrays of gathered
  feature rows and the five resident operands whole, and writes back rows `4096 t … 4096 t + 4095` of the one-column
  result. So what point `t` writes back is block `t` of ONE column `scores`: entry `r` is the perceptron's score of staged
  source row `r` and staged destination row `r` (`rowScore`). The 128 blocks tile the 524288 rows (row `r` lies in block
  `r / 4096`), so the result array ends holding `scores`.
-/
import proofs.«143500_j51041391345811_1_alg».proof.Proof.Gen.KernelIdeal.Frame
import proofs.«143500_j51041391345811_1_alg».proof.Proof.KPay
import Idealize.ShloMosaic.Lib.Pipeline.Value
import Idealize.ShloMosaic.Lib.ValueIdx

noncomputable section

open scoped BigOperators

namespace Cert.KernelIdeal.Block

open Cert.KernelIdeal Cert.KernelIdeal.Gen Cert.KernelIdeal.Body Idealize.ShloMosaic Idealize.ShloMosaic.TcCoe Idealize.SL.Sem
open Idealize.ShloMosaic.ValueIdx Cert.EdgeScore
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The arrays the region finds, each at its literal type. -/
abbrev srcRows (c : Dev nD) : Vec Ideal S524288x256 .bf16 := V m c main_v24
abbrev dstRows (c : Dev nD) : Vec Ideal S524288x256 .bf16 := V m c main_v39
abbrev w1top (c : Dev nD) : Vec Ideal S256x256 .bf16 := V m c main_v41
abbrev w1bot (c : Dev nD) : Vec Ideal S256x256 .bf16 := V m c main_v43
abbrev bias1 (c : Dev nD) : Vec Ideal S256 .f32 := V m c main_arg3
abbrev w2col (c : Dev nD) : Vec Ideal S256x1 .bf16 := V m c main_v44
abbrev bias2 (c : Dev nD) : Vec Ideal S1 .f32 := V m c main_arg5

/-- The score of row `r` of the 524288 staged edges. -/
def rowScore (c : Dev nD) (r : Fin 524288) : EReal :=
  scoreOf (fun k => (∑ j : Fin 256, srcRows m c (ix2 r j) * w1top m c (ix2 j k)) + ∑ j : Fin 256, dstRows m c (ix2 r j) * w1bot m c (ix2 j k))
    (bias1 m c) (w2col m c) (bias2 m c)

/-- The whole column of scores. -/
def scores (c : Dev nD) : Vec Ideal S524288x1 .f32 := fun i => rowScore m c ⟨(i 0).val, (i 0).isLt⟩

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem hN : cfg0.N = 128 := N_0
theorem point_lt (t : Fin cfg0.N) : t.val < 128 := lt_of_lt_of_eq t.isLt hN

/-- The blocks the body loads at point `t`, each at its literal type. -/
abbrev blk0 (c : Dev nD) (t : Fin cfg0.N) : Vec Ideal S4096x256 .bf16 := iblk m c 0 t
abbrev blk1 (c : Dev nD) (t : Fin cfg0.N) : Vec Ideal S4096x256 .bf16 := iblk m c 1 t
abbrev blk2 (c : Dev nD) (t : Fin cfg0.N) : Vec Ideal S256x256 .bf16 := iblk m c 2 t
abbrev blk3 (c : Dev nD) (t : Fin cfg0.N) : Vec Ideal S256x256 .bf16 := iblk m c 3 t
abbrev blk4 (c : Dev nD) (t : Fin cfg0.N) : Vec Ideal S256 .f32 := iblk m c 4 t
abbrev blk5 (c : Dev nD) (t : Fin cfg0.N) : Vec Ideal S256x1 .bf16 := iblk m c 5 t
abbrev blk6 (c : Dev nD) (t : Fin cfg0.N) : Vec Ideal S1 .f32 := iblk m c 6 t

/-- The source block at point `t` is rows `4096 t … 4096 t + 4095` of the staged source rows. -/
theorem blk0_apply (c : Dev nD) (t : Fin cfg0.N) (p : Fin 4096) (j : Fin 256) :
    blk0 m c t (ix2 p j) = srcRows m c (ix2 (⟨t.val * 4096 + p.val, by have := point_lt t; omega⟩ : Fin 524288) j) := by
  obtain ⟨e0, e1, -⟩ := idx_facts t
  show V m c main_v24 (((cfg0.win 0).blk t).view.emb (ix2 p j)) = V m c main_v24 _
  refine congrArg (V m c main_v24) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 256 + 1 * j.val = j.val; rw [e1]; omega

/-- The destination block likewise. -/
theorem blk1_apply (c : Dev nD) (t : Fin cfg0.N) (p : Fin 4096) (j : Fin 256) :
    blk1 m c t (ix2 p j) = dstRows m c (ix2 (⟨t.val * 4096 + p.val, by have := point_lt t; omega⟩ : Fin 524288) j) := by
  obtain ⟨-, -, e0, e1, -⟩ := idx_facts t
  show V m c main_v39 (((cfg0.win 1).blk t).view.emb (ix2 p j)) = V m c main_v39 _
  refine congrArg (V m c main_v39) (funext fun a => Fin.ext ?_)
  match a with
  | ⟨0, _⟩ => show win0_1.index t (0 : Fin 2) * 4096 + 1 * p.val = t.val * 4096 + p.val; rw [e0]; omega
  | ⟨1, _⟩ => show win0_1.index t (1 : Fin 2) * 256 + 1 * j.val = j.val; rw [e1]; omega

/-- The resident operands' blocks are the whole arrays. -/
theorem blk2_eq (c : Dev nD) (t : Fin cfg0.N) : blk2 m c t = w1top m c := by
  obtain ⟨-, -, -, -, e0, e1, -⟩ := idx_facts t
  funext y
  show V m c main_v41 (((cfg0.win 2).blk t).view.emb y) = V m c main_v41 y
  refine congrArg (V m c main_v41) (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega
theorem blk3_eq (c : Dev nD) (t : Fin cfg0.N) : blk3 m c t = w1bot m c := by
  obtain ⟨-, -, -, -, -, -, e0, e1, -⟩ := idx_facts t
  funext y
  show V m c main_v43 (((cfg0.win 3).blk t).view.emb y) = V m c main_v43 y
  refine congrArg (V m c main_v43) (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega
theorem blk4_eq (c : Dev nD) (t : Fin cfg0.N) : blk4 m c t = bias1 m c := by
  obtain ⟨-, -, -, -, -, -, -, -, e0, -⟩ := idx_facts t
  funext y
  show V m c main_arg3 (((cfg0.win 4).blk t).view.emb y) = V m c main_arg3 y
  refine congrArg (V m c main_arg3) (funext fun a => Fin.ext ?_)
  match a with
  | ⟨0, _⟩ => show win0_4.index t (0 : Fin 1) * 256 + 1 * (y 0).val = (y 0).val; rw [e0]; omega
theorem blk5_eq (c : Dev nD) (t : Fin cfg0.N) : blk5 m c t = w2col m c := by
  obtain ⟨-, -, -, -, -, -, -, -, -, e0, e1, -⟩ := idx_facts t
  funext y
  show V m c main_v44 (((cfg0.win 5).blk t).view.emb y) = V m c main_v44 y
  refine congrArg (V m c main_v44) (funext fun a => Fin.ext ?_)
  match a with
  | ⟨0, _⟩ => show win0_5.index t (0 : Fin 2) * 256 + 1 * (y 0).val = (y 0).val; rw [e0]; omega
  | ⟨1, _⟩ => show win0_5.index t (1 : Fin 2) * 1 + 1 * (y 1).val = (y 1).val; rw [e1]; omega
theorem blk6_eq (c : Dev nD) (t : Fin cfg0.N) : blk6 m c t = bias2 m c := by
  obtain ⟨-, -, -, -, -, -, -, -, -, -, -, e0, -⟩ := idx_facts t
  funext y
  show V m c main_arg5 (((cfg0.win 6).blk t).view.emb y) = V m c main_arg5 y
  refine congrArg (V m c main_arg5) (funext fun a => Fin.ext ?_)
  match a with
  | ⟨0, _⟩ => show win0_6.index t (0 : Fin 1) * 1 + 1 * (y 0).val = (y 0).val; rw [e0]; omega

/-- What point `t` writes back is block `t` of the column of scores: row `p` of the stored column is the score of
    staged row `4096 t + p`. -/
theorem flushed_eq (c : Dev nD) (t : Fin cfg0.N) :
    (dats m 0 c).flushed 7 t = ((cfg0.win 7).blk t).view.read (Elt Ideal) (scores m c) := by
  show (cfg0.win 7).cut (grid0.coords t) ((dats m 0 c).after 7 t) = _
  rw [after0_7]
  unfold out0_7
  rw [View.canon_unit_zero hz2]
  simp only [View.ld_unit_zero (S := S4096x256) hz2, View.ld_unit_zero (S := S256x256) hz2, View.ld_unit_zero (S := S256) hz1,
    View.ld_unit_zero (S := S256x1) hz2, View.ld_unit_zero (S := S1) hz1]
  funext y
  have hy0 : (y 0).val < 4096 := (y 0).isLt
  have hy1 : (y 1).val < 1 := (y 1).isLt
  obtain ⟨p, rfl⟩ : ∃ p : Fin 4096, y = ix2 p (0 : Fin 1) := ⟨⟨(y 0).val, hy0⟩, funext fun a => by
    match a with
    | ⟨0, _⟩ => rfl
    | ⟨1, _⟩ => exact Fin.ext (by show (y 1).val = 0; omega)⟩
  show k0_pay1 (blk0 m c t) (blk1 m c t) (blk2 m c t) (blk3 m c t) (blk4 m c t) (blk5 m c t) (blk6 m c t) (ix2 p (0 : Fin 1))
    = scores m c (((cfg0.win 7).blk t).view.emb (ix2 p (0 : Fin 1)))
  refine (pay_apply (blk0 m c t) (blk1 m c t) (blk2 m c t) (blk3 m c t) (blk4 m c t) (blk5 m c t) (blk6 m c t) p).trans ?_
  obtain ⟨-, -, -, -, -, -, -, -, -, -, -, -, e0, -⟩ := idx_facts t
  have hrow : scores m c (((cfg0.win 7).blk t).view.emb (ix2 p (0 : Fin 1)))
      = rowScore m c (⟨t.val * 4096 + p.val, by have := point_lt t; omega⟩ : Fin 524288) := by
    unfold scores
    exact congrArg (rowScore m c) (Fin.ext (by
      show win0_7.index t (0 : Fin 2) * 4096 + 1 * p.val = t.val * 4096 + p.val; rw [e0]; omega))
  rw [hrow]
  unfold rowScore
  rw [blk2_eq, blk3_eq, blk4_eq, blk5_eq, blk6_eq]
  simp only [blk0_apply, blk1_apply]

/-- An index of the result array is in point `t`'s block iff each coordinate is in the block's range on its axis. -/
theorem mem_blk (t : Fin cfg0.N) (i : S524288x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v45).slice (win0_7.rect t)).set ↔ _
  rw [View.set_slice_whole, Rect.mem_set_unit]
  exact Iff.rfl

/-- Row `r` of the result lies in the block of point `r / 4096`. -/
theorem cover (i : S524288x1.Idx) : ∃ t : Fin cfg0.N, (cfg0.win 7).flush t = true ∧ i ∈ ((cfg0.win 7).blk t).view.set := by
  have hi0 : (i 0).val < 524288 := (i 0).isLt
  have hi1 : (i 1).val < 1 := (i 1).isLt
  let t : Fin cfg0.N := Fin.cast hN.symm (⟨(i 0).val / 4096, by omega⟩ : Fin 128)
  have ht : t.val = (i 0).val / 4096 := rfl
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    rw [e0, ht]; omega
  | ⟨1, _⟩ =>
    show win0_7.index t (1 : Fin 2) * 1 ≤ (i 1).val ∧ (i 1).val < win0_7.index t (1 : Fin 2) * 1 + 1
    rw [e1]; omega

/-- The result array after the region holds the column of scores. -/
theorem final (c : Dev nD) : (dats m 0 c).arrAt 7 cfg0.N = scores m c :=
  (dats m 0 c).arrAt_eq_of_cover 7 (scores m c) (fun t _ => flushed_eq m c t) cover

end Cert.KernelIdeal.Block

end
-- ==== Proof.KTail.lean ====
/-
  The program's two results, from the score array the region leaves.

  After the region the program flattens the one-column score array and cuts it in two: the first result is rows
  0 … 262143 of the staged edges' scores (the positive list), the second rows 262144 … 524287 (the negative list).
-/
import proofs.«143500_j51041391345811_1_alg».proof.Proof.KBlock
import Idealize.ShloMosaic.Lib.StableHlo.Run

noncomputable section

open scoped BigOperators

namespace Cert.KernelIdeal.Tail

open Cert.KernelIdeal Cert.KernelIdeal.Gen Cert.KernelIdeal.Block Idealize.ShloMosaic Idealize.ShloMosaic.TcCoe Idealize.SL.Sem
open Idealize.ShloMosaic.ValueIdx Cert.EdgeScore Idealize.ShloMosaic.StableHlo
open Idealize.ShloMosaic.Pipeline (Dat)

variable (m : (ℓ : Loc nD τ sig) → Buf (Elt Ideal) ℓ) (ρ : Dev nD → PrngReg)

/-- The result array as the lines after the region find it: the column of scores. -/
theorem arr7 (c : Dev nD) :
    Pipeline.withArrays (cfgs 0).spec c (V0 m c) (fun w => (dats m 0 c).arrAt w (cfgs 0).N) (Proc.devRef .tc main_v45) = scores m c :=
  (Pipeline.withArrays_arr spec0 launch0.win.arr_inj c _ _ 7).trans (final m c)

/-- The first result: entry `e` is the score of staged row `e`. -/
theorem tail_pos (c : Dev nD) : Pipeline.afterTail₀ cfgs (dats m) 0 (V0 m) [hostOps1] c main_v47
    = fun i => rowScore m c (⟨(i 0).val, by have h : (i 0).val < 262144 := (i 0).isLt; omega⟩ : Fin 524288) := by
  unfold Pipeline.afterTail₀
  show StableHlo.after hostOps1 _ (Proc.devRef .tc main_v47) = _
  after_results
  funext i
  have hi : (i 0).val < 262144 := (i 0).isLt
  obtain ⟨e, rfl⟩ : ∃ e : Fin 262144, i = ix1 e := ⟨⟨(i 0).val, hi⟩, funext fun a => by
    match a with
    | ⟨0, _⟩ => rfl⟩
  refine (extractStridedSlice_apply ![0] _ slices_S524288_S262144_0 (ix1 e) (ix1 (⟨e.val, by omega⟩ : Fin 524288)) (fun a => by
    match a with
    | ⟨0, _⟩ => show e.val = 0 + e.val; omega)).trans ?_
  show shapeCast S524288 (Pipeline.withArrays (cfgs 0).spec c (V0 m c) (fun w => (dats m 0 c).arrAt w (cfgs 0).N) (Proc.devRef .tc main_v45))
    shapeCasts_S524288x1_S524288 (ix1 (⟨e.val, by omega⟩ : Fin 524288)) = _
  rw [arr7]
  refine (shapeCast_apply (scores m c) shapeCasts_S524288x1_S524288 (ix1 (⟨e.val, by omega⟩ : Fin 524288))
    (ix2 (⟨e.val, by omega⟩ : Fin 524288) (0 : Fin 1))
    (by rewrite [Shape.rowMajor_val_two, Shape.rowMajor_val_one]; show e.val * 1 + 0 = e.val; omega)).trans ?_
  rfl

/-- The second result: entry `e` is the score of staged row `262144 + e`. -/
theorem tail_neg (c : Dev nD) : Pipeline.afterTail₀ cfgs (dats m) 0 (V0 m) [hostOps1] c main_v48
    = fun i => rowScore m c (⟨262144 + (i 0).val, by have h : (i 0).val < 262144 := (i 0).isLt; omega⟩ : Fin 524288) := by
  unfold Pipeline.afterTail₀
  show StableHlo.after hostOps1 _ (Proc.devRef .tc main_v48) = _
  after_results
  funext i
  have hi : (i 0).val < 262144 := (i 0).isLt
  obtain ⟨e, rfl⟩ : ∃ e : Fin 262144, i = ix1 e := ⟨⟨(i 0).val, hi⟩, funext fun a => by
    match a with
    | ⟨0, _⟩ => rfl⟩
  refine (extractStridedSlice_apply ![262144] _ slices_S524288_S262144_262144 (ix1 e) (ix1 (⟨262144 + e.val, by omega⟩ : Fin 524288)) (fun a => by
    match a with
    | ⟨0, _⟩ => show 262144 + e.val = 262144 + e.val; rfl)).trans ?_
  show shapeCast S524288 (Pipeline.withArrays (cfgs 0).spec c (V0 m c) (fun w => (dats m 0 c).arrAt w (cfgs 0).N) (Proc.devRef .tc main_v45))
    shapeCasts_S524288x1_S524288 (ix1 (⟨262144 + e.val, by omega⟩ : Fin 524288)) = _
  rw [arr7]
  refine (shapeCast_apply (scores m c) shapeCasts_S524288x1_S524288 (ix1 (⟨262144 + e.val, by omega⟩ : Fin 524288))
    (ix2 (⟨262144 + e.val, by omega⟩ : Fin 524288) (0 : Fin 1))
    (by rewrite [Shape.rowMajor_val_two, Shape.rowMajor_val_one]; show (262144 + e.val) * 1 + 0 = 262144 + e.val; omega)).trans ?_
  rfl

end Cert.KernelIdeal.Tail

end
-- ==== Proof.KPrefix.lean ====
/-
  The arrays the region finds, from the program's arguments.

  Before the region the program takes row 0 and row 1 of each of its two edge lists as start indices (a negative
  index moved up by the table's 100000 rows), gathers with them rows of the two feature tables (each first cast to
  bf16, the identity on the extended reals), stacks the positive list's rows on the negative list's, cuts the first
  layer's weights into their upper and lower 256 rows, and casts the weights to bf16.
-/
import proofs.«143500_j51041391345811_1_alg».proof.Proof.Gen.KernelIdeal.Frame
import Idealize.ShloMosaic.Lib.StableHlo.Run
import Idealize.ShloMosaic.PureOps.Ideal
import Idealize.ShloMosaic.Lib.Pipeline.Value
import Idealize.ShloMosaic.Lib.ValueIdx
import proofs.«143500_j51041391345811_1_alg».proof.Proof.Score

noncomputable section

namespace Cert.KernelIdeal.Prefix

open Cert.KernelIdeal Cert.KernelIdeal.Gen Idealize.ShloMosaic Idealize.ShloMosaic.TcCoe Idealize.SL.Sem Idealize.ShloMosaic.StableHlo
open Idealize.ShloMosaic.ValueIdx Cert.EdgeScore

variable (m : (ℓ : Loc nD τ sig) → Buf (Elt Ideal) ℓ)

/-- Row 0 of an edge list as gather start indices: a negative entry moved up by 100000, laid out as a column. -/
def starts0 (x : (⟨S2x262144, .i32⟩ : BufTy).Contents (Elt Ideal)) : (⟨S262144x1, .i32⟩ : BufTy).Contents (Elt Ideal) :=
  broadcastInDim S262144x1 ![0] bcast_S262144_S262144x1_0
    (select (cmpi .slt (shapeCast _ (extractStridedSlice S1x262144 ![0, 0] x slices_S2x262144_S1x262144_0_0) shapeCasts_S1x262144_S262144) (broadcastInDim S262144 ![] bcast_S_S262144 (constantI S_ 32 0#32)))
      (addi (shapeCast _ (extractStridedSlice S1x262144 ![0, 0] x slices_S2x262144_S1x262144_0_0) shapeCasts_S1x262144_S262144) (broadcastInDim S262144 ![] bcast_S_S262144 (constantI S_ 32 100000#32)))
      (shapeCast _ (extractStridedSlice S1x262144 ![0, 0] x slices_S2x262144_S1x262144_0_0) shapeCasts_S1x262144_S262144))

/-- Row 1 of an edge list likewise. -/
def starts1 (x : (⟨S2x262144, .i32⟩ : BufTy).Contents (Elt Ideal)) : (⟨S262144x1, .i32⟩ : BufTy).Contents (Elt Ideal) :=
  broadcastInDim S262144x1 ![0] bcast_S262144_S262144x1_0
    (select (cmpi .slt (shapeCast _ (extractStridedSlice S1x262144 ![1, 0] x slices_S2x262144_S1x262144_1_0) shapeCasts_S1x262144_S262144) (broadcastInDim S262144 ![] bcast_S_S262144 (constantI S_ 32 0#32)))
      (addi (shapeCast _ (extractStridedSlice S1x262144 ![1, 0] x slices_S2x262144_S1x262144_1_0) shapeCasts_S1x262144_S262144) (broadcastInDim S262144 ![] bcast_S_S262144 (constantI S_ 32 100000#32)))
      (shapeCast _ (extractStridedSlice S1x262144 ![1, 0] x slices_S2x262144_S1x262144_1_0) shapeCasts_S1x262144_S262144))

/-- The rows of a feature table (cast to bf16) at a column of start indices. -/
def rowsAt (x : (⟨S100000x256, .f32⟩ : BufTy).Contents (Elt Ideal)) (s : (⟨S262144x1, .i32⟩ : BufTy).Contents (Elt Ideal)) :
    (⟨S262144x256, .bf16⟩ : BufTy).Contents (Elt Ideal) :=
  Host.gather gather_S100000x256_S262144x1_S262144x256_1_0_n_n_0_1_1256 (truncf (F := Ideal) .bf16 x bitsLt_bf16_f32) s

set_option maxHeartbeats 4000000 in
/-- The staged source rows: the positive edges' source rows stacked on the negative edges'. -/
theorem V_v24 (c : Dev nD) : V m c main_v24
    = concatenate S524288x256 0 [⟨S262144x256, rowsAt (m ((c : Thread nD τ).loc main_arg0)) (starts0 (m ((c : Thread nD τ).loc main_arg6)))⟩,
        ⟨S262144x256, rowsAt (m ((c : Thread nD τ).loc main_arg0)) (starts0 (m ((c : Thread nD τ).loc main_arg7)))⟩]
        concatenates_S262144x256_S262144x256_S524288x256_d0 := by
  dsimp only [V, V0]
  simp only [hostOps0, List.flatten_cons, List.flatten_nil, List.append_nil, List.cons_append, List.nil_append]
  after_results
  rfl

set_option maxHeartbeats 4000000 in
/-- The staged destination rows: the positive edges' destination rows stacked on the negative edges'. -/
theorem V_v39 (c : Dev nD) : V m c main_v39
    = concatenate S524288x256 0 [⟨S262144x256, rowsAt (m ((c : Thread nD τ).loc main_arg1)) (starts1 (m ((c : Thread nD τ).loc main_arg6)))⟩,
        ⟨S262144x256, rowsAt (m ((c : Thread nD τ).loc main_arg1)) (starts1 (m ((c : Thread nD τ).loc main_arg7)))⟩]
        concatenates_S262144x256_S262144x256_S524288x256_d0 := by
  dsimp only [V, V0]
  simp only [hostOps0, List.flatten_cons, List.flatten_nil, List.append_nil, List.cons_append, List.nil_append]
  after_results
  rfl

set_option maxHeartbeats 4000000 in
/-- The upper 256 rows of the first layer's weights. -/
theorem V_v41 (c : Dev nD) : V m c main_v41
    = truncf (F := Ideal) .bf16 (extractStridedSlice S256x256 ![0, 0] (m ((c : Thread nD τ).loc main_arg2)) slices_S512x256_S256x256_0_0) bitsLt_bf16_f32 := by
  dsimp only [V, V0]
  simp only [hostOps0, List.flatten_cons, List.flatten_nil, List.append_nil, List.cons_append, List.nil_append]
  after_results

set_option maxHeartbeats 4000000 in
/-- The lower 256 rows of the first layer's weights. -/
theorem V_v43 (c : Dev nD) : V m c main_v43
    = truncf (F := Ideal) .bf16 (extractStridedSlice S256x256 ![256, 0] (m ((c : Thread nD τ).loc main_arg2)) slices_S512x256_S256x256_256_0) bitsLt_bf16_f32 := by
  dsimp only [V, V0]
  simp only [hostOps0, List.flatten_cons, List.flatten_nil, List.append_nil, List.cons_append, List.nil_append]
  after_results

set_option maxHeartbeats 4000000 in
/-- The second layer's column. -/
theorem V_v44 (c : Dev nD) : V m c main_v44 = truncf (F := Ideal) .bf16 (m ((c : Thread nD τ).loc main_arg4)) bitsLt_bf16_f32 := by
  dsimp only [V, V0]
  simp only [hostOps0, List.flatten_cons, List.flatten_nil, List.append_nil, List.cons_append, List.nil_append]
  after_results

/-! ## The stacked rows and the cut weights, read at an index -/

/-- Row `e` of two stacked arrays of 262144 rows is row `e` of the upper one. -/
theorem stack_top (A B : (⟨S262144x256, .bf16⟩ : BufTy).Contents (Elt Ideal)) (e : Fin 262144) (j : Fin 256) :
    concatenate S524288x256 0 [⟨S262144x256, A⟩, ⟨S262144x256, B⟩] concatenates_S262144x256_S262144x256_S524288x256_d0
      (ix2 (⟨e.val, by have := e.isLt; omega⟩ : Fin 524288) j) = A (ix2 e j) :=
  concatenate_pair_apply_left 0 A B concatenates_S262144x256_S262144x256_S524288x256_d0 _ rfl (ix2 e j)
    (fun b => match b with
      | ⟨0, _⟩ => rfl
      | ⟨1, _⟩ => rfl)

/-- Row `262144 + e` of them is row `e` of the lower one. -/
theorem stack_bot (A B : (⟨S262144x256, .bf16⟩ : BufTy).Contents (Elt Ideal)) (e : Fin 262144) (j : Fin 256) :
    concatenate S524288x256 0 [⟨S262144x256, A⟩, ⟨S262144x256, B⟩] concatenates_S262144x256_S262144x256_S524288x256_d0
      (ix2 (⟨262144 + e.val, by have := e.isLt; omega⟩ : Fin 524288) j) = B (ix2 e j) :=
  concatenate_pair_apply_right 0 A B concatenates_S262144x256_S262144x256_S524288x256_d0 _ rfl rfl (ix2 e j)
    (fun b hb => match b, hb with
      | ⟨0, _⟩, hb => absurd rfl hb
      | ⟨1, _⟩, _ => rfl)
    (by show e.val + 262144 = 262144 + e.val; omega)

/-- Entry `(j, k)` of the upper half of the weights is entry `(j, k)` of the whole. -/
theorem top_apply (W : (⟨S512x256, .f32⟩ : BufTy).Contents (Elt Ideal)) (j k : Fin 256) :
    truncf (F := Ideal) .bf16 (extractStridedSlice S256x256 ![0, 0] W slices_S512x256_S256x256_0_0) bitsLt_bf16_f32 (ix2 j k)
      = W (ix2 (lo j) k) := by
  rw [truncf_apply]
  exact extractStridedSlice_apply ![0, 0] W slices_S512x256_S256x256_0_0 (ix2 j k) (ix2 (lo j) k) (fun a => match a with
    | ⟨0, _⟩ => by show j.val = 0 + j.val; omega
    | ⟨1, _⟩ => by show k.val = 0 + k.val; omega)

/-- Entry `(j, k)` of the lower half of the weights is entry `(256 + j, k)` of the whole. -/
theorem bot_apply (W : (⟨S512x256, .f32⟩ : BufTy).Contents (Elt Ideal)) (j k : Fin 256) :
    truncf (F := Ideal) .bf16 (extractStridedSlice S256x256 ![256, 0] W slices_S512x256_S256x256_256_0) bitsLt_bf16_f32 (ix2 j k)
      = W (ix2 (hi j) k) := by
  rw [truncf_apply]
  exact extractStridedSlice_apply ![256, 0] W slices_S512x256_S256x256_256_0 (ix2 j k) (ix2 (hi j) k) (fun a => match a with
    | ⟨0, _⟩ => by show 256 + j.val = 256 + j.val; rfl
    | ⟨1, _⟩ => by show k.val = 0 + k.val; omega)

end Cert.KernelIdeal.Prefix

end
-- ==== Proof.KValue.lean ====
/-
  The idealized kernel program's run, read: its two results as one function of its arguments.

  Entry `e` of the first result is the perceptron's score of edge `e` of the first edge list — its source row gathered
  from the first feature table at row 0 of the list, its destination row from the second table at row 1 — with the
  first layer's product taken half by half (`Cert.EdgeScore.scoreSplit`); the second result is the same function of
  the second edge list. Row `e` of the staged arrays is edge `e` of the first list and row `262144 + e` edge `e` of
  the second, because the two lists' rows were stacked; the resident weights are the two halves of `W1`.
-/
import proofs.«143500_j51041391345811_1_alg».proof.Proof.KTail
import proofs.«143500_j51041391345811_1_alg».proof.Proof.KPrefix

noncomputable section

open scoped BigOperators

namespace Cert.KernelIdeal.Scores

open Cert.KernelIdeal Cert.KernelIdeal.Gen Cert.KernelIdeal.Block Cert.KernelIdeal.Tail Cert.KernelIdeal.Prefix
open Idealize.ShloMosaic Idealize.ShloMosaic.TcCoe Idealize.SL.Sem Idealize.ShloMosaic.ValueIdx Cert.EdgeScore
open Idealize.ShloMosaic.Pipeline (Dat)

variable (m : (ℓ : Loc nD τ sig) → Buf (Elt Ideal) ℓ) (ρ : Dev nD → PrngReg)

/-- The scores of one edge list `xe`, from the two feature tables and the perceptron's parameters. -/
def edgeScores (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (xe : (⟨S2x262144, .i32⟩ : BufTy).Contents (Elt Ideal)) :
    (⟨S262144, .f32⟩ : BufTy).Contents (Elt Ideal) := fun i =>
  scoreSplit (fun j => rowsAt x0 (starts0 xe) (ix2 (⟨(i 0).val, (i 0).isLt⟩ : Fin 262144) j))
    (fun j => rowsAt x1 (starts1 xe) (ix2 (⟨(i 0).val, (i 0).isLt⟩ : Fin 262144) j)) x2 x3 x4 x5

theorem srcRows_eq (c : Dev nD) : srcRows m c
    = concatenate S524288x256 0 [⟨S262144x256, rowsAt (m ((c : Thread nD τ).loc main_arg0)) (starts0 (m ((c : Thread nD τ).loc main_arg6)))⟩,
        ⟨S262144x256, rowsAt (m ((c : Thread nD τ).loc main_arg0)) (starts0 (m ((c : Thread nD τ).loc main_arg7)))⟩]
        concatenates_S262144x256_S262144x256_S524288x256_d0 := V_v24 m c
theorem dstRows_eq (c : Dev nD) : dstRows m c
    = concatenate S524288x256 0 [⟨S262144x256, rowsAt (m ((c : Thread nD τ).loc main_arg1)) (starts1 (m ((c : Thread nD τ).loc main_arg6)))⟩,
        ⟨S262144x256, rowsAt (m ((c : Thread nD τ).loc main_arg1)) (starts1 (m ((c : Thread nD τ).loc main_arg7)))⟩]
        concatenates_S262144x256_S262144x256_S524288x256_d0 := V_v39 m c
theorem w1top_eq (c : Dev nD) : w1top m c
    = truncf (F := Ideal) .bf16 (extractStridedSlice S256x256 ![0, 0] (m ((c : Thread nD τ).loc main_arg2)) slices_S512x256_S256x256_0_0) bitsLt_bf16_f32 := V_v41 m c
theorem w1bot_eq (c : Dev nD) : w1bot m c
    = truncf (F := Ideal) .bf16 (extractStridedSlice S256x256 ![256, 0] (m ((c : Thread nD τ).loc main_arg2)) slices_S512x256_S256x256_256_0) bitsLt_bf16_f32 := V_v43 m c
theorem bias1_eq (c : Dev nD) : bias1 m c = m ((c : Thread nD τ).loc main_arg3) := V_main_arg3 m c
theorem bias2_eq (c : Dev nD) : bias2 m c = m ((c : Thread nD τ).loc main_arg5) := V_main_arg5 m c
theorem w2col_eq (c : Dev nD) : w2col m c = m ((c : Thread nD τ).loc main_arg4) :=
  (V_v44 m c).trans (funext fun i => rfl)

/-- Staged row `e` is edge `e` of the first list. -/
theorem rowScore_top (c : Dev nD) (e : Fin 262144) :
    rowScore m c (⟨e.val, by have := e.isLt; omega⟩ : Fin 524288)
      = scoreSplit (fun j => rowsAt (m ((c : Thread nD τ).loc main_arg0)) (starts0 (m ((c : Thread nD τ).loc main_arg6))) (ix2 e j))
          (fun j => rowsAt (m ((c : Thread nD τ).loc main_arg1)) (starts1 (m ((c : Thread nD τ).loc main_arg6))) (ix2 e j))
          (m ((c : Thread nD τ).loc main_arg2)) (m ((c : Thread nD τ).loc main_arg3)) (m ((c : Thread nD τ).loc main_arg4)) (m ((c : Thread nD τ).loc main_arg5)) := by
  unfold rowScore scoreSplit
  rw [bias1_eq, bias2_eq, w2col_eq]
  refine congrArg (fun p => scoreOf p _ _ _) (funext fun k => ?_)
  unfold splitDot
  have hs : ∀ j : Fin 256, srcRows m c (ix2 (⟨e.val, by have := e.isLt; omega⟩ : Fin 524288) j) * w1top m c (ix2 j k)
      = rowsAt (m ((c : Thread nD τ).loc main_arg0)) (starts0 (m ((c : Thread nD τ).loc main_arg6))) (ix2 e j)
        * m ((c : Thread nD τ).loc main_arg2) (ix2 (lo j) k) := fun j => by
    rw [srcRows_eq, w1top_eq, stack_top, top_apply]
  have hd : ∀ j : Fin 256, dstRows m c (ix2 (⟨e.val, by have := e.isLt; omega⟩ : Fin 524288) j) * w1bot m c (ix2 j k)
      = rowsAt (m ((c : Thread nD τ).loc main_arg1)) (starts1 (m ((c : Thread nD τ).loc main_arg6))) (ix2 e j)
        * m ((c : Thread nD τ).loc main_arg2) (ix2 (hi j) k) := fun j => by
    rw [dstRows_eq, w1bot_eq, stack_top, bot_apply]
  simp only [hs, hd]

/-- Staged row `262144 + e` is edge `e` of the second list. -/
theorem rowScore_bot (c : Dev nD) (e : Fin 262144) :
    rowScore m c (⟨262144 + e.val, by have := e.isLt; omega⟩ : Fin 524288)
      = scoreSplit (fun j => rowsAt (m ((c : Thread nD τ).loc main_arg0)) (starts0 (m ((c : Thread nD τ).loc main_arg7))) (ix2 e j))
          (fun j => rowsAt (m ((c : Thread nD τ).loc main_arg1)) (starts1 (m ((c : Thread nD τ).loc main_arg7))) (ix2 e j))
          (m ((c : Thread nD τ).loc main_arg2)) (m ((c : Thread nD τ).loc main_arg3)) (m ((c : Thread nD τ).loc main_arg4)) (m ((c : Thread nD τ).loc main_arg5)) := by
  unfold rowScore scoreSplit
  rw [bias1_eq, bias2_eq, w2col_eq]
  refine congrArg (fun p => scoreOf p _ _ _) (funext fun k => ?_)
  unfold splitDot
  have hs : ∀ j : Fin 256, srcRows m c (ix2 (⟨262144 + e.val, by have := e.isLt; omega⟩ : Fin 524288) j) * w1top m c (ix2 j k)
      = rowsAt (m ((c : Thread nD τ).loc main_arg0)) (starts0 (m ((c : Thread nD τ).loc main_arg7))) (ix2 e j)
        * m ((c : Thread nD τ).loc main_arg2) (ix2 (lo j) k) := fun j => by
    rw [srcRows_eq, w1top_eq, stack_bot, top_apply]
  have hd : ∀ j : Fin 256, dstRows m c (ix2 (⟨262144 + e.val, by have := e.isLt; omega⟩ : Fin 524288) j) * w1bot m c (ix2 j k)
      = rowsAt (m ((c : Thread nD τ).loc main_arg1)) (starts1 (m ((c : Thread nD τ).loc main_arg7))) (ix2 e j)
        * m ((c : Thread nD τ).loc main_arg2) (ix2 (hi j) k) := fun j => by
    rw [dstRows_eq, w1bot_eq, stack_bot, bot_apply]
  simp only [hs, hd]

/-- The run, read: each result at the scores of its edge list, the arguments unchanged. -/
theorem run : θ_run defs (onTc (τ := τ) (main (F := Ideal))) ⟨m, fun _ => 0, ρ⟩ fun r => ∀ c : Dev nD,
      r.2.mem ((c.tc : Thread nD τ).loc main_v47)
        = edgeScores (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_v48)
        = edgeScores (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v47 (Pipeline.mem_restRefs_of main_v47 (by decide) (by decide))).trans
        ((tail_pos m c).trans (funext fun i => rowScore_top m c ⟨(i 0).val, (i 0).isLt⟩)),
      ((h c).2 main_v48 (Pipeline.mem_restRefs_of main_v48 (by decide) (by decide))).trans
        ((tail_neg m c).trans (funext fun i => rowScore_bot m c ⟨(i 0).val, (i 0).isLt⟩)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Scores

end
-- ==== Proof.RefScore.lean ====
/-
  The reference's two results, read at an edge.

  For each of its two edge lists the reference gathers the edges' source rows and destination rows, joins them side by
  side into 512-long rows, and applies the perceptron: a `dot_general` with the 512 × 256 weights plus the bias,
  rectified, a `dot_general` with the one output column plus the output bias. At the extended reals each `dot_general`
  is the plain sum over its contracted axis, so result entry `e` is the score (`Cert.EdgeScore.score`) of the
  gathered rows of edge `e`; the gathers themselves are left as they are.
-/
import proofs.«143500_j51041391345811_1_alg».proof.Proof.Gen.ReferenceIdeal.Run
import proofs.«143500_j51041391345811_1_alg».proof.Proof.Gen.ReferenceIdeal.Read
import proofs.«143500_j51041391345811_1_alg».proof.Proof.Score

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeScore

/-- Two arrays of 256-long rows joined side by side, read at row `e` and position `q`: the concatenated row. -/
theorem rowcat_apply (A B : (⟨S262144x256, .f32⟩ : BufTy).Contents (Elt Ideal)) (e : Fin 262144) (q : Fin 512) :
    concatenate S262144x512 1 [⟨S262144x256, A⟩, ⟨S262144x256, B⟩] concatenates_S262144x256_S262144x256_S262144x512_d1 (ix2 e q)
      = cat (fun j => A (ix2 e j)) (fun j => B (ix2 e j)) q := by
  unfold cat
  by_cases h : q.val < 256
  · rw [dif_pos h]
    exact concatenate_pair_apply_left 1 A B concatenates_S262144x256_S262144x256_S262144x512_d1 (ix2 e q) rfl (ix2 e ⟨q.val, h⟩)
      (fun b => match b with
        | ⟨0, _⟩ => rfl
        | ⟨1, _⟩ => rfl)
  · rw [dif_neg h]
    exact concatenate_pair_apply_right 1 A B concatenates_S262144x256_S262144x256_S262144x512_d1 (ix2 e q) rfl rfl
      (ix2 e ⟨q.val - 256, by have := q.isLt; omega⟩)
      (fun b hb => match b, hb with
        | ⟨0, _⟩, _ => rfl
        | ⟨1, _⟩, hb => absurd rfl hb)
      (by show q.val - 256 + 256 = q.val; omega)

/-- The reference's pos score of edge `e`: the perceptron's score of the gathered source row and destination row,
    the first layer's product one sum over the concatenated row. -/
theorem pos_apply (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (x6 : (⟨S2x262144, .i32⟩ : BufTy).Contents (Elt Ideal)) (e : Fin 262144) :
    val_main_v32 (F := Ideal) x0 x1 x2 x3 x4 x5 x6 (ix1 e)
      = score (fun j => val_main_v14 (F := Ideal) x0 x6 (ix2 e j)) (fun j => val_main_v21 (F := Ideal) x1 x6 (ix2 e j)) x2 x3 x4 x5 := by
  rw [val_main_v32_apply, val_main_v31_apply, val_main_v28_apply, val_main_v30_apply, val_main_v29_apply]
  have i1 : idx_main_v32 (ix1 e) = ix2 e (0 : Fin 1) := funext fun a => Fin.ext (by
    match a with
    | ⟨0, _⟩ => show e.val / 1 = e.val; omega
    | ⟨1, _⟩ => rfl)
  rw [i1]
  have hl : ∀ k : Fin 256, lidx_main_v28 (ix2 e (0 : Fin 1)) k = ix2 e k := fun k => funext fun a => Fin.ext (by
    match a with
    | ⟨0, _⟩ => rfl
    | ⟨1, _⟩ => rfl)
  have hr : ∀ k : Fin 256, ridx_main_v28 (ix2 e (0 : Fin 1)) k = ix2 k (0 : Fin 1) := fun k => funext fun a => Fin.ext (by
    match a with
    | ⟨0, _⟩ => rfl
    | ⟨1, _⟩ => rfl)
  have hb2 : idx_main_v29 (idx_main_v30 (ix2 e (0 : Fin 1))) = ix1 (0 : Fin 1) := funext fun a => Fin.ext (by
    match a with
    | ⟨0, _⟩ => rfl)
  simp only [hl, hr]
  rw [hb2]
  unfold score scoreOf
  show (∑ k : Fin 256, _) + x5 (ix1 (0 : Fin 1)) = _
  refine congrArg (· + x5 (ix1 (0 : Fin 1))) (Finset.sum_congr rfl fun k _ => ?_)
  refine congrArg (· * x4 (ix2 k (0 : Fin 1))) ?_
  rw [val_main_v27_apply, val_main_v26_apply, val_main_v23_apply, val_main_v25_apply, val_main_v24_apply,
    val_main_call0_v0_apply, val_main_call0_cst_apply]
  have hb1 : idx_main_v24 (idx_main_v25 (ix2 e k)) = ix1 k := funext fun a => Fin.ext (by
    match a with
    | ⟨0, _⟩ => rfl)
  rw [hb1]
  have hl1 : ∀ q : Fin 512, lidx_main_v23 (ix2 e k) q = ix2 e q := fun q => funext fun a => Fin.ext (by
    match a with
    | ⟨0, _⟩ => rfl
    | ⟨1, _⟩ => rfl)
  have hr1 : ∀ q : Fin 512, ridx_main_v23 (ix2 e k) q = ix2 q k := fun q => funext fun a => Fin.ext (by
    match a with
    | ⟨0, _⟩ => rfl
    | ⟨1, _⟩ => rfl)
  simp only [hl1, hr1]
  show max ((∑ q : Fin 512, _) + x3 (ix1 k)) (Ideal.ofBits .f32 0x00000000#32) = _
  rw [Ideal.ofBits_zero_f32]
  unfold catDot
  refine congrArg (fun s => max (s + x3 (ix1 k)) 0) (Finset.sum_congr rfl fun q _ => ?_)
  refine congrArg (· * x2 (ix2 q k)) ?_
  unfold val_main_v22
  exact rowcat_apply _ _ e q

/-- The reference's neg score of edge `e`: the perceptron's score of the gathered source row and destination row,
    the first layer's product one sum over the concatenated row. -/
theorem neg_apply (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (x6 : (⟨S2x262144, .i32⟩ : BufTy).Contents (Elt Ideal)) (e : Fin 262144) :
    val_main_v57 (F := Ideal) x0 x1 x2 x3 x4 x5 x6 (ix1 e)
      = score (fun j => val_main_v39 (F := Ideal) x0 x6 (ix2 e j)) (fun j => val_main_v46 (F := Ideal) x1 x6 (ix2 e j)) x2 x3 x4 x5 := by
  rw [val_main_v57_apply, val_main_v56_apply, val_main_v53_apply, val_main_v55_apply, val_main_v54_apply]
  have i1 : idx_main_v57 (ix1 e) = ix2 e (0 : Fin 1) := funext fun a => Fin.ext (by
    match a with
    | ⟨0, _⟩ => show e.val / 1 = e.val; omega
    | ⟨1, _⟩ => rfl)
  rw [i1]
  have hl : ∀ k : Fin 256, lidx_main_v53 (ix2 e (0 : Fin 1)) k = ix2 e k := fun k => funext fun a => Fin.ext (by
    match a with
    | ⟨0, _⟩ => rfl
    | ⟨1, _⟩ => rfl)
  have hr : ∀ k : Fin 256, ridx_main_v53 (ix2 e (0 : Fin 1)) k = ix2 k (0 : Fin 1) := fun k => funext fun a => Fin.ext (by
    match a with
    | ⟨0, _⟩ => rfl
    | ⟨1, _⟩ => rfl)
  have hb2 : idx_main_v54 (idx_main_v55 (ix2 e (0 : Fin 1))) = ix1 (0 : Fin 1) := funext fun a => Fin.ext (by
    match a with
    | ⟨0, _⟩ => rfl)
  simp only [hl, hr]
  rw [hb2]
  unfold score scoreOf
  show (∑ k : Fin 256, _) + x5 (ix1 (0 : Fin 1)) = _
  refine congrArg (· + x5 (ix1 (0 : Fin 1))) (Finset.sum_congr rfl fun k _ => ?_)
  refine congrArg (· * x4 (ix2 k (0 : Fin 1))) ?_
  rw [val_main_v52_apply, val_main_v51_apply, val_main_v48_apply, val_main_v50_apply, val_main_v49_apply,
    val_main_call1_v0_apply, val_main_call1_cst_apply]
  have hb1 : idx_main_v49 (idx_main_v50 (ix2 e k)) = ix1 k := funext fun a => Fin.ext (by
    match a with
    | ⟨0, _⟩ => rfl)
  rw [hb1]
  have hl1 : ∀ q : Fin 512, lidx_main_v48 (ix2 e k) q = ix2 e q := fun q => funext fun a => Fin.ext (by
    match a with
    | ⟨0, _⟩ => rfl
    | ⟨1, _⟩ => rfl)
  have hr1 : ∀ q : Fin 512, ridx_main_v48 (ix2 e k) q = ix2 q k := fun q => funext fun a => Fin.ext (by
    match a with
    | ⟨0, _⟩ => rfl
    | ⟨1, _⟩ => rfl)
  simp only [hl1, hr1]
  show max ((∑ q : Fin 512, _) + x3 (ix1 k)) (Ideal.ofBits .f32 0x00000000#32) = _
  rw [Ideal.ofBits_zero_f32]
  unfold catDot
  refine congrArg (fun s => max (s + x3 (ix1 k)) 0) (Finset.sum_congr rfl fun q _ => ?_)
  refine congrArg (· * x2 (ix2 q k)) ?_
  unfold val_main_v47
  exact rowcat_apply _ _ e q

end Cert.ReferenceIdeal.RefValue

end
-- ==== Proof.lean ====
/-
  An edge scorer as a Pallas kernel against its jnp reference, equal over the extended reals.

  Both programs score the edges of two edge lists with a two-layer perceptron over the edge's source row (gathered
  from the first feature table) and destination row (gathered from the second): hidden unit `k` is
  `max (⟨src ‖ dst, W1[:, k]⟩ + b1[k]) 0`, the score `⟨hidden, W2[:, 0]⟩ + b2[0]`.

  The reference joins the two rows into one 512-long row and contracts it with `W1` in ONE sum over 512 positions.
  The kernel program casts tables and weights to bf16 (the identity on the extended reals), stacks the two lists'
  gathered rows into 524288 rows, and in blocks of 4096 rows computes `src · W1[:256] + dst · W1[256:]`, two sums
  over 256 positions, then bias, `max · 0`, the product with `W2`'s column and the output bias; its two results are
  the upper and the lower half of the 524288 scores. The one law between the two sides is that a sum over the 512
  positions of the joined row is the sum over its first 256 plus the sum over its last 256: commutativity and
  associativity of `+` only, valid at the infinities too, so the precondition (finite inputs) is never opened. The two
  programs compute the gathers' start indices by the same operations and gather with the same dimension numbers, so
  the gathered rows are the same arrays and are never read inside.

  The three frames: the two kernel programs' are the generated frame certificates; the reference's is its generated
  run with the results dropped. The ideal pass rewrote nothing, so `preserves` is `True`.
-/
import proofs.«143500_j51041391345811_1_alg».proof.Defs
import proofs.«143500_j51041391345811_1_alg».proof.Proof.Gen.Kernel
import proofs.«143500_j51041391345811_1_alg».proof.Proof.Gen.Kernel.Frame
import proofs.«143500_j51041391345811_1_alg».proof.Proof.Gen.KernelIdeal
import proofs.«143500_j51041391345811_1_alg».proof.Proof.Gen.KernelIdeal.Frame
import proofs.«143500_j51041391345811_1_alg».proof.Proof.Gen.ReferenceIdeal
import proofs.«143500_j51041391345811_1_alg».proof.Proof.Gen.ReferenceIdeal.Run
import proofs.«143500_j51041391345811_1_alg».proof.Proof.Gen.ReferenceIdeal.Read
import proofs.«143500_j51041391345811_1_alg».proof.Proof.Gen.Pre_finite_inputs
import proofs.«143500_j51041391345811_1_alg».proof.Proof.KValue
import proofs.«143500_j51041391345811_1_alg».proof.Proof.RefScore
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeScore

/-! ## The two programs' gathered rows are the same arrays -/

/-- The two programs gather with the same dimension numbers; the kernel program's table is the reference's cast to
    bf16, which on the extended reals is the same table. -/
theorem rows_eq (x : (⟨Cert.ReferenceIdeal.S100000x256, .f32⟩ : BufTy).Contents (Elt Ideal))
    (s : (⟨Cert.ReferenceIdeal.S262144x1, .i32⟩ : BufTy).Contents (Elt Ideal)) :
    Host.gather Cert.ReferenceIdeal.gather_S100000x256_S262144x1_S262144x256_1_0_n_n_0_1_1256 x s = Cert.KernelIdeal.Prefix.rowsAt x s := rfl

/-- The start indices from row 0 of an edge list are computed by the same operations. -/
theorem starts0_pos (x : (⟨Cert.ReferenceIdeal.S2x262144, .i32⟩ : BufTy).Contents (Elt Ideal)) :
    Cert.ReferenceIdeal.Read.val_main_v13 (F := Ideal) x = Cert.KernelIdeal.Prefix.starts0 x := rfl
theorem starts1_pos (x : (⟨Cert.ReferenceIdeal.S2x262144, .i32⟩ : BufTy).Contents (Elt Ideal)) :
    Cert.ReferenceIdeal.Read.val_main_v20 (F := Ideal) x = Cert.KernelIdeal.Prefix.starts1 x := rfl
theorem starts0_neg (x : (⟨Cert.ReferenceIdeal.S2x262144, .i32⟩ : BufTy).Contents (Elt Ideal)) :
    Cert.ReferenceIdeal.Read.val_main_v38 (F := Ideal) x = Cert.KernelIdeal.Prefix.starts0 x := rfl
theorem starts1_neg (x : (⟨Cert.ReferenceIdeal.S2x262144, .i32⟩ : BufTy).Contents (Elt Ideal)) :
    Cert.ReferenceIdeal.Read.val_main_v45 (F := Ideal) x = Cert.KernelIdeal.Prefix.starts1 x := rfl

/-! ## The reference's results are the kernel program's function of the arguments -/

/-- The reference's first result is the scores of the first edge list, as the kernel program's run states them. -/
theorem ref_pos (x0 x1 : (⟨Cert.ReferenceIdeal.S100000x256, .f32⟩ : BufTy).Contents (Elt Ideal))
    (x2 : (⟨Cert.ReferenceIdeal.S512x256, .f32⟩ : BufTy).Contents (Elt Ideal)) (x3 : (⟨Cert.ReferenceIdeal.S256, .f32⟩ : BufTy).Contents (Elt Ideal))
    (x4 : (⟨Cert.ReferenceIdeal.S256x1, .f32⟩ : BufTy).Contents (Elt Ideal)) (x5 : (⟨Cert.ReferenceIdeal.S1, .f32⟩ : BufTy).Contents (Elt Ideal))
    (x6 : (⟨Cert.ReferenceIdeal.S2x262144, .i32⟩ : BufTy).Contents (Elt Ideal)) :
    Cert.ReferenceIdeal.Read.val_main_v32 (F := Ideal) x0 x1 x2 x3 x4 x5 x6 = Cert.KernelIdeal.Scores.edgeScores x0 x1 x2 x3 x4 x5 x6 := by
  funext i
  have hi : (i 0).val < 262144 := (i 0).isLt
  obtain ⟨e, rfl⟩ : ∃ e : Fin 262144, i = ix1 e := ⟨⟨(i 0).val, hi⟩, funext fun a => by
    match a with
    | ⟨0, _⟩ => rfl⟩
  rw [Cert.ReferenceIdeal.RefValue.pos_apply]
  show _ = scoreSplit (fun j => Cert.KernelIdeal.Prefix.rowsAt x0 (Cert.KernelIdeal.Prefix.starts0 x6) (ix2 e j))
    (fun j => Cert.KernelIdeal.Prefix.rowsAt x1 (Cert.KernelIdeal.Prefix.starts1 x6) (ix2 e j)) x2 x3 x4 x5
  rw [scoreSplit_eq_score]
  unfold Cert.ReferenceIdeal.Read.val_main_v14 Cert.ReferenceIdeal.Read.val_main_v21
  rw [starts0_pos, starts1_pos, rows_eq, rows_eq]

/-- The reference's second result is the scores of the second edge list. -/
theorem ref_neg (x0 x1 : (⟨Cert.ReferenceIdeal.S100000x256, .f32⟩ : BufTy).Contents (Elt Ideal))
    (x2 : (⟨Cert.ReferenceIdeal.S512x256, .f32⟩ : BufTy).Contents (Elt Ideal)) (x3 : (⟨Cert.ReferenceIdeal.S256, .f32⟩ : BufTy).Contents (Elt Ideal))
    (x4 : (⟨Cert.ReferenceIdeal.S256x1, .f32⟩ : BufTy).Contents (Elt Ideal)) (x5 : (⟨Cert.ReferenceIdeal.S1, .f32⟩ : BufTy).Contents (Elt Ideal))
    (x7 : (⟨Cert.ReferenceIdeal.S2x262144, .i32⟩ : BufTy).Contents (Elt Ideal)) :
    Cert.ReferenceIdeal.Read.val_main_v57 (F := Ideal) x0 x1 x2 x3 x4 x5 x7 = Cert.KernelIdeal.Scores.edgeScores x0 x1 x2 x3 x4 x5 x7 := by
  funext i
  have hi : (i 0).val < 262144 := (i 0).isLt
  obtain ⟨e, rfl⟩ : ∃ e : Fin 262144, i = ix1 e := ⟨⟨(i 0).val, hi⟩, funext fun a => by
    match a with
    | ⟨0, _⟩ => rfl⟩
  rw [Cert.ReferenceIdeal.RefValue.neg_apply]
  show _ = scoreSplit (fun j => Cert.KernelIdeal.Prefix.rowsAt x0 (Cert.KernelIdeal.Prefix.starts0 x7) (ix2 e j))
    (fun j => Cert.KernelIdeal.Prefix.rowsAt x1 (Cert.KernelIdeal.Prefix.starts1 x7) (ix2 e j)) x2 x3 x4 x5
  rw [scoreSplit_eq_score]
  unfold Cert.ReferenceIdeal.Read.val_main_v39 Cert.ReferenceIdeal.Read.val_main_v46
  rw [starts0_neg, starts1_neg, rows_eq, rows_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result at the scores of its edge list. -/
theorem algebraic : Cert.algebraic_KernelIdeal_ReferenceIdeal := by
  intro m ρ m' ρ' _ hagree
  refine ⟨_, _, Cert.KernelIdeal.Scores.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · refine (Cert.ReferenceIdeal.Read.val_main_v32_eq _ _ _ _ _ _ _).trans ?_
    rw [ref_pos, a0, a1, a2, a3, a4, a5, a6]
  · refine (Cert.ReferenceIdeal.Read.val_main_v57_eq _ _ _ _ _ _ _).trans ?_
    rw [ref_neg, a0, a1, a2, a3, a4, a5, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
